-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x2048 : Shape := ⟨3, ![16, 128, 2048]⟩
abbrev S16x2048x8192 : Shape := ⟨3, ![16, 2048, 8192]⟩
abbrev S16x1x8192 : Shape := ⟨3, ![16, 1, 8192]⟩
abbrev S16x8192x2048 : Shape := ⟨3, ![16, 8192, 2048]⟩
abbrev S16x1x2048 : Shape := ⟨3, ![16, 1, 2048]⟩
abbrev S_ : Shape := ⟨0, ![]⟩

class Facts : Prop where
  bcast_S_S16x128x2048 : S_.BroadcastsInDim S16x128x2048 (![] : Fin 0 → Fin S16x128x2048.rank)
  reducesTo_S16x128x2048_S_d0_1_2 : S16x128x2048.ReducesTo [0, 1, 2] S_
  h_S_ : 0 < S_.numel
  bcast_S_S16x2048x8192 : S_.BroadcastsInDim S16x2048x8192 (![] : Fin 0 → Fin S16x2048x8192.rank)
  reducesTo_S16x2048x8192_S_d0_1_2 : S16x2048x8192.ReducesTo [0, 1, 2] S_
  bcast_S_S16x1x8192 : S_.BroadcastsInDim S16x1x8192 (![] : Fin 0 → Fin S16x1x8192.rank)
  reducesTo_S16x1x8192_S_d0_1_2 : S16x1x8192.ReducesTo [0, 1, 2] S_
  bcast_S_S16x8192x2048 : S_.BroadcastsInDim S16x8192x2048 (![] : Fin 0 → Fin S16x8192x2048.rank)
  reducesTo_S16x8192x2048_S_d0_1_2 : S16x8192x2048.ReducesTo [0, 1, 2] S_
  bcast_S_S16x1x2048 : S_.BroadcastsInDim S16x1x2048 (![] : Fin 0 → Fin S16x1x2048.rank)
  reducesTo_S16x1x2048_S_d0_1_2 : S16x1x2048.ReducesTo [0, 1, 2] S_

variable [Facts]

def fn_part1 {F : FTy → Type} [FloatOps F] (main_arg4 : FVec F S16x1x8192 .f32) (main_arg5 : FVec F S16x8192x2048 .f32) (main_arg6 : FVec F S16x1x2048 .f32) (main_v13 : IVec S_ 1) (main_v16 : IVec S16x2048x8192 1) : IVec S_ 1 :=
  let main_c_5 : IVec S_ 1 := constantI S_ 1 1#1
  let main_v17 : IVec S_ 1 := (fun x v => Host.reduce IntOp.andi x v reducesTo_S16x2048x8192_S_d0_1_2 h_S_) main_v16 main_c_5
  let main_v18 : IVec S_ 1 := andi main_v13 main_v17
  let main_v19 : FVec F S16x1x8192 .f32 := Host.absf main_arg4
  let main_cst_6 : FVec F S_ .f32 := constant S_ .f32 0x7F800000#32
  let main_v20 : FVec F S16x1x8192 .f32 := broadcastInDim S16x1x8192 ![] bcast_S_S16x1x8192 main_cst_6
  let main_v21 : IVec S16x1x8192 1 := cmpf .olt main_v19 main_v20
  let main_c_7 : IVec S_ 1 := constantI S_ 1 1#1
  let main_v22 : IVec S_ 1 := (fun x v => Host.reduce IntOp.andi x v reducesTo_S16x1x8192_S_d0_1_2 h_S_) main_v21 main_c_7
  let main_v23 : IVec S_ 1 := andi main_v18 main_v22
  let main_v24 : FVec F S16x8192x2048 .f32 := Host.absf main_arg5
  let main_cst_8 : FVec F S_ .f32 := constant S_ .f32 0x7F800000#32
  let main_v25 : FVec F S16x8192x2048 .f32 := broadcastInDim S16x8192x2048 ![] bcast_S_S16x8192x2048 main_cst_8
  let main_v26 : IVec S16x8192x2048 1 := cmpf .olt main_v24 main_v25
  let main_c_9 : IVec S_ 1 := constantI S_ 1 1#1
  let main_v27 : IVec S_ 1 := (fun x v => Host.reduce IntOp.andi x v reducesTo_S16x8192x2048_S_d0_1_2 h_S_) main_v26 main_c_9
  let main_v28 : IVec S_ 1 := andi main_v23 main_v27
  let main_v29 : FVec F S16x1x2048 .f32 := Host.absf main_arg6
  let main_cst_10 : FVec F S_ .f32 := constant S_ .f32 0x7F800000#32
  let main_v30 : FVec F S16x1x2048 .f32 := broadcastInDim S16x1x2048 ![] bcast_S_S16x1x2048 main_cst_10
  let main_v31 : IVec S16x1x2048 1 := cmpf .olt main_v29 main_v30
  let main_c_11 : IVec S_ 1 := constantI S_ 1 1#1
  let main_v32 : IVec S_ 1 := (fun x v => Host.reduce IntOp.andi x v reducesTo_S16x1x2048_S_d0_1_2 h_S_) main_v31 main_c_11
  let main_v33 : IVec S_ 1 := andi main_v28 main_v32
  main_v33

def fn {F : FTy → Type} [FloatOps F] (main_arg0 : FVec F S16x128x2048 .f32) (main_arg1 : FVec F S16x2048x8192 .f32) (main_arg2 : FVec F S16x1x8192 .f32) (main_arg3 : FVec F S16x2048x8192 .f32) (main_arg4 : FVec F S16x1x8192 .f32) (main_arg5 : FVec F S16x8192x2048 .f32) (main_arg6 : FVec F S16x1x2048 .f32) : IVec S_ 1 :=
  let main_v0 : FVec F S16x128x2048 .f32 := Host.absf main_arg0
  let main_cst : FVec F S_ .f32 := constant S_ .f32 0x7F800000#32
  let main_v1 : FVec F S16x128x2048 .f32 := broadcastInDim S16x128x2048 ![] bcast_S_S16x128x2048 main_cst
  let main_v2 : IVec S16x128x2048 1 := cmpf .olt main_v0 main_v1
  let main_c : IVec S_ 1 := constantI S_ 1 1#1
  let main_v3 : IVec S_ 1 := (fun x v => Host.reduce IntOp.andi x v reducesTo_S16x128x2048_S_d0_1_2 h_S_) main_v2 main_c
  let main_v4 : FVec F S16x2048x8192 .f32 := Host.absf main_arg1
  let main_cst_0 : FVec F S_ .f32 := constant S_ .f32 0x7F800000#32
  let main_v5 : FVec F S16x2048x8192 .f32 := broadcastInDim S16x2048x8192 ![] bcast_S_S16x2048x8192 main_cst_0
  let main_v6 : IVec S16x2048x8192 1 := cmpf .olt main_v4 main_v5
  let main_c_1 : IVec S_ 1 := constantI S_ 1 1#1
  let main_v7 : IVec S_ 1 := (fun x v => Host.reduce IntOp.andi x v reducesTo_S16x2048x8192_S_d0_1_2 h_S_) main_v6 main_c_1
  let main_v8 : IVec S_ 1 := andi main_v3 main_v7
  let main_v9 : FVec F S16x1x8192 .f32 := Host.absf main_arg2
  let main_cst_2 : FVec F S_ .f32 := constant S_ .f32 0x7F800000#32
  let main_v10 : FVec F S16x1x8192 .f32 := broadcastInDim S16x1x8192 ![] bcast_S_S16x1x8192 main_cst_2
  let main_v11 : IVec S16x1x8192 1 := cmpf .olt main_v9 main_v10
  let main_c_3 : IVec S_ 1 := constantI S_ 1 1#1
  let main_v12 : IVec S_ 1 := (fun x v => Host.reduce IntOp.andi x v reducesTo_S16x1x8192_S_d0_1_2 h_S_) main_v11 main_c_3
  let main_v13 : IVec S_ 1 := andi main_v8 main_v12
  let main_v14 : FVec F S16x2048x8192 .f32 := Host.absf main_arg3
  let main_cst_4 : FVec F S_ .f32 := constant S_ .f32 0x7F800000#32
  let main_v15 : FVec F S16x2048x8192 .f32 := broadcastInDim S16x2048x8192 ![] bcast_S_S16x2048x8192 main_cst_4
  let main_v16 : IVec S16x2048x8192 1 := cmpf .olt main_v14 main_v15
  fn_part1 (F := F) main_arg4 main_arg5 main_arg6 main_v13 main_v16
-- ==== Kernel.lean ====
abbrev S16x128x2048 : Shape := ⟨3, ![16, 128, 2048]⟩
abbrev S16x2048x8192 : Shape := ⟨3, ![16, 2048, 8192]⟩
abbrev S16x1x8192 : Shape := ⟨3, ![16, 1, 8192]⟩
abbrev S16x8192x2048 : Shape := ⟨3, ![16, 8192, 2048]⟩
abbrev S16x1x2048 : Shape := ⟨3, ![16, 1, 2048]⟩
abbrev S1x128x2048 : Shape := ⟨3, ![1, 128, 2048]⟩
abbrev S1x2048x256 : Shape := ⟨3, ![1, 2048, 256]⟩
abbrev S1x1x256 : Shape := ⟨3, ![1, 1, 256]⟩
abbrev S1x256x2048 : Shape := ⟨3, ![1, 256, 2048]⟩
abbrev S1x1x2048 : Shape := ⟨3, ![1, 1, 2048]⟩
abbrev S128x2048 : Shape := ⟨2, ![128, 2048]⟩
abbrev S2048x256 : Shape := ⟨2, ![2048, 256]⟩
abbrev S128x256 : Shape := ⟨2, ![128, 256]⟩
abbrev S1x256 : Shape := ⟨2, ![1, 256]⟩
abbrev S256x2048 : Shape := ⟨2, ![256, 2048]⟩
abbrev S1x2048 : Shape := ⟨2, ![1, 2048]⟩

abbrev nBuf : Space → Nat
  | .hbm => 8
  | .vmem => 17
  | .smem => 0
  | _ => 0

abbrev bufTy : (tb : Table) → Fin (tcTables nBuf tb) → BufTy
  | .hbm, ⟨0, _⟩ => ⟨S16x128x2048, .f32⟩
  | .hbm, ⟨1, _⟩ => ⟨S16x2048x8192, .f32⟩
  | .hbm, ⟨2, _⟩ => ⟨S16x1x8192, .f32⟩
  | .hbm, ⟨3, _⟩ => ⟨S16x2048x8192, .f32⟩
  | .hbm, ⟨4, _⟩ => ⟨S16x1x8192, .f32⟩
  | .hbm, ⟨5, _⟩ => ⟨S16x8192x2048, .f32⟩
  | .hbm, ⟨6, _⟩ => ⟨S16x1x2048, .f32⟩
  | .hbm, ⟨7, _⟩ => ⟨S16x128x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x1x256, .f32⟩
  | .local _ .vmem, ⟨5, _⟩ => ⟨S1x1x256, .f32⟩
  | .local _ .vmem, ⟨6, _⟩ => ⟨S1x2048x256, .f32⟩
  | .local _ .vmem, ⟨7, _⟩ => ⟨S1x2048x256, .f32⟩
  | .local _ .vmem, ⟨8, _⟩ => ⟨S1x1x256, .f32⟩
  | .local _ .vmem, ⟨9, _⟩ => ⟨S1x1x256, .f32⟩
  | .local _ .vmem, ⟨10, _⟩ => ⟨S1x256x2048, .f32⟩
  | .local _ .vmem, ⟨11, _⟩ => ⟨S1x256x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x128x2048, .f32⟩
  | .local _ .vmem, ⟨15, _⟩ => ⟨S1x128x2048, .f32⟩
  | .local _ .vmem, ⟨16, _⟩ => ⟨S128x2048, .f32⟩
  | _, _ => ⟨S16x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v35 : BitVec 1 := Scalar.cmpi .eq arg1 c31_i32
  let v36 : BitVec 32 := Scalar.extui v35
  let c0_i32_24 : BitVec 32 := 0#32
  let v37 : BitVec 1 := Scalar.cmpi .ne v36 c0_i32_24
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S128x256 : S1x256.Broadcasts S128x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S128x2048 : S1x2048.Broadcasts S128x2048
  shapeCasts_S128x2048_S1x128x2048 : S128x2048.ShapeCasts S1x128x2048
  dot_S128x2048_S2048x256_S128x256_1_0_0_1_n_n_wf : DotDims.WF S128x2048 S2048x256 S128x256 [1] [0] [0] [1] [] []
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S16x128x2048.size a
  hwx0_0 : ∀ i : grid0.Coords, EltTy.bits .f32 = 32 ∨ (Rect.block (s := S16x128x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x8192.size a
  hwx0_1 : ∀ i : grid0.Coords, EltTy.bits .f32 = 32 ∨ (Rect.block (s := S16x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x8192.size a
  hwx0_2 : ∀ i : grid0.Coords, EltTy.bits .f32 = 32 ∨ (Rect.block (s := S16x1x8192) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S16x2048x8192.size a
  hwx0_3 : ∀ i : grid0.Coords, EltTy.bits .f32 = 32 ∨ (Rect.block (s := S16x2048x8192) S1x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S16x1x8192.size a
  hwx0_4 : ∀ i : grid0.Coords, EltTy.bits .f32 = 32 ∨ (Rect.block (s := S16x1x8192) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S16x8192x2048.size a
  hwx0_5 : ∀ i : grid0.Coords, EltTy.bits .f32 = 32 ∨ (Rect.block (s := S16x8192x2048) S1x256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S16x1x2048.size a
  hwx0_6 : ∀ i : grid0.Coords, EltTy.bits .f32 = 32 ∨ (Rect.block (s := S16x1x2048) S1x1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x2048.size a ≤ S16x128x2048.size a
  hwx0_7 : ∀ i : grid0.Coords, EltTy.bits .f32 = 32 ∨ (Rect.block (s := S16x128x2048) S1x128x2048.size (cc0_transform_7 i) (hinb0_7 i)).WholeWords (EltTy.packing .f32)

variable [Facts₀]

def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16x128x2048 : Shape := ⟨3, ![16, 128, 2048]⟩
abbrev S16x2048x8192 : Shape := ⟨3, ![16, 2048, 8192]⟩
abbrev S16x1x8192 : Shape := ⟨3, ![16, 1, 8192]⟩
abbrev S16x8192x2048 : Shape := ⟨3, ![16, 8192, 2048]⟩
abbrev S16x1x2048 : Shape := ⟨3, ![16, 1, 2048]⟩
abbrev S16x128x8192 : Shape := ⟨3, ![16, 128, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16x128x2048, .f32⟩
  | .hbm, ⟨1, _⟩ => ⟨S16x2048x8192, .f32⟩
  | .hbm, ⟨2, _⟩ => ⟨S16x1x8192, .f32⟩
  | .hbm, ⟨3, _⟩ => ⟨S16x2048x8192, .f32⟩
  | .hbm, ⟨4, _⟩ => ⟨S16x1x8192, .f32⟩
  | .hbm, ⟨5, _⟩ => ⟨S16x8192x2048, .f32⟩
  | .hbm, ⟨6, _⟩ => ⟨S16x1x2048, .f32⟩
  | .hbm, ⟨7, _⟩ => ⟨S16x128x8192, .f32⟩
  | .hbm, ⟨8, _⟩ => ⟨S16x128x8192, .f32⟩
  | .hbm, ⟨9, _⟩ => ⟨S16x128x8192, .f32⟩
  | .hbm, ⟨10, _⟩ => ⟨S16x128x8192, .f32⟩
  | .hbm, ⟨11, _⟩ => ⟨S16x128x8192, .f32⟩
  | .hbm, ⟨12, _⟩ => ⟨S16x128x8192, .f32⟩
  | .hbm, ⟨13, _⟩ => ⟨S16x128x8192, .f32⟩
  | .hbm, ⟨14, _⟩ => ⟨S16x128x8192, .f32⟩
  | .hbm, ⟨15, _⟩ => ⟨S_, .f32⟩
  | .hbm, ⟨16, _⟩ => ⟨S16x128x8192, .f32⟩
  | .hbm, ⟨17, _⟩ => ⟨S16x128x8192, .f32⟩
  | .hbm, ⟨18, _⟩ => ⟨S_, .f32⟩
  | .hbm, ⟨19, _⟩ => ⟨S16x128x8192, .f32⟩
  | .hbm, ⟨20, _⟩ => ⟨S16x128x8192, .f32⟩
  | .hbm, ⟨21, _⟩ => ⟨S16x128x8192, .f32⟩
  | .hbm, ⟨22, _⟩ => ⟨S16x128x8192, .f32⟩
  | .hbm, ⟨23, _⟩ => ⟨S16x128x2048, .f32⟩
  | .hbm, ⟨24, _⟩ => ⟨S16x128x2048, .f32⟩
  | .hbm, ⟨25, _⟩ => ⟨S16x128x2048, .f32⟩
  | _, _ => ⟨S16x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]

class Facts₀ : Prop where
  bcast_S16x1x8192_S16x128x8192_0_1_2 : S16x1x8192.BroadcastsInDim S16x128x8192 (![0, 1, 2] : Fin 3 → Fin S16x128x8192.rank)
  bcast_S_S16x128x8192 : S_.BroadcastsInDim S16x128x8192 (![] : Fin 0 → Fin S16x128x8192.rank)
  bcast_S16x1x2048_S16x128x2048_0_1_2 : S16x1x2048.BroadcastsInDim S16x128x2048 (![0, 1, 2] : Fin 3 → Fin S16x128x2048.rank)
  dot_S16x128x2048_S16x2048x8192_S16x128x8192_2_1_1_2_0_0_wf : DotDims.WF S16x128x2048 S16x2048x8192 S16x128x8192 [2] [1] [1] [2] [0] [0]
  dot_S16x128x8192_S16x8192x2048_S16x128x2048_2_1_1_2_0_0_wf : DotDims.WF S16x128x8192 S16x8192x2048 S16x128x2048 [2] [1] [1] [2] [0] [0]

variable [Facts₀]

def dot_S16x128x2048_S16x2048x8192_S16x128x8192_2_1_1_2_0_0 : DotDims S16x128x2048 S16x2048x8192 S16x128x8192 where
  lhsContracting := [2]
  rhsContracting := [1]
  lhsNonContracting := [1]
  rhsNonContracting := [2]
  lhsBatch := [0]
  rhsBatch := [0]
  wf := dot_S16x128x2048_S16x2048x8192_S16x128x8192_2_1_1_2_0_0_wf
def dot_S16x128x8192_S16x8192x2048_S16x128x2048_2_1_1_2_0_0 : DotDims S16x128x8192 S16x8192x2048 S16x128x2048 where
  lhsContracting := [2]
  rhsContracting := [1]
  lhsNonContracting := [1]
  rhsNonContracting := [2]
  lhsBatch := [0]
  rhsBatch := [0]
  wf := dot_S16x128x8192_S16x8192x2048_S16x128x2048_2_1_1_2_0_0_wf

class Facts : Prop extends Facts₀ where

variable [Facts]
-- ==== Proof.GatedMlp.lean ====
/-
  A bank of gated two-layer perceptrons, one per expert, over the extended reals.

  Expert e maps a row x(e, t, ·) of D features to O outputs through H hidden units. Hidden unit h forms two affine
  read-outs of the row, u = Σ_k x(e,t,k)·Wu(e,k,h) + bu(e,h) and g = Σ_k x(e,t,k)·Wg(e,k,h) + bg(e,h), and passes on
  u · (g · σ(g)) with σ the logistic function; output o is Σ_h hidden(h)·Wd(e,h,o) + bd(e,o).

  Addition of extended reals is commutative and associative, so the sum over the hidden units may be taken stretch by
  stretch: H = m·n hidden units fall into m consecutive stretches of n, and the running sum of the first j + 1 stretches
  grows by one stretch at a time (running_zero, running_succ) until, with all m stretches in, it is the whole sum
  (running_last). Nothing here asks that any entry be finite.

  A stretch's contribution can be computed from blocks cut out of the weight arrays: if a block of rows and a block of
  hidden columns agree entry by entry with the arrays they were cut from, the blocks' own hidden units are the arrays'
  hidden units of that stretch (hidden_of_blocks), and weighted by the matching block of down-projection rows they sum to
  the stretch's share (stretch_of_blocks).
-/
import Idealize.ShloMosaic.Lib.ValueIdx
import Idealize.ShloMosaic.PureOps.Ideal.Laws
import Mathlib.Algebra.BigOperators.Fin
import Mathlib.Logic.Equiv.Fin.Basic

noncomputable section

namespace GatedMlp

open Idealize.ShloMosaic Idealize.ShloMosaic.ValueIdx

variable {E T D H O : Nat}

/-- An affine read-out of row (e, t): Σ_k x(e,t,k)·w(e,k,h) + b(e,0,h). -/
def affine (x : (⟨3, ![E, T, D]⟩ : Shape).Idx → EReal) (w : (⟨3, ![E, D, H]⟩ : Shape).Idx → EReal)
    (b : (⟨3, ![E, 1, H]⟩ : Shape).Idx → EReal) (e : Fin E) (t : Fin T) (h : Fin H) : EReal :=
  (∑ k : Fin D, x (ix3 e t k) * w (ix3 e k h)) + b (ix3 e 0 h)

/-- Hidden unit h of expert e on row t: the up read-out times the gate read-out passed through g ↦ g·σ(g). -/
def hidden (x : (⟨3, ![E, T, D]⟩ : Shape).Idx → EReal)
    (wu : (⟨3, ![E, D, H]⟩ : Shape).Idx → EReal) (bu : (⟨3, ![E, 1, H]⟩ : Shape).Idx → EReal)
    (wg : (⟨3, ![E, D, H]⟩ : Shape).Idx → EReal) (bg : (⟨3, ![E, 1, H]⟩ : Shape).Idx → EReal)
    (e : Fin E) (t : Fin T) (h : Fin H) : EReal :=
  affine x wu bu e t h * (affine x wg bg e t h * Ideal.logistic (affine x wg bg e t h))

/-- The hidden units weighted by column o of the down projection, summed over all of them. -/
def mixed (x : (⟨3, ![E, T, D]⟩ : Shape).Idx → EReal)
    (wu : (⟨3, ![E, D, H]⟩ : Shape).Idx → EReal) (bu : (⟨3, ![E, 1, H]⟩ : Shape).Idx → EReal)
    (wg : (⟨3, ![E, D, H]⟩ : Shape).Idx → EReal) (bg : (⟨3, ![E, 1, H]⟩ : Shape).Idx → EReal)
    (wd : (⟨3, ![E, H, O]⟩ : Shape).Idx → EReal) (e : Fin E) (t : Fin T) (o : Fin O) : EReal :=
  ∑ h : Fin H, hidden x wu bu wg bg e t h * wd (ix3 e h o)

/-- The whole map: the mixed hidden units plus the output bias. -/
def out (x : (⟨3, ![E, T, D]⟩ : Shape).Idx → EReal)
    (wu : (⟨3, ![E, D, H]⟩ : Shape).Idx → EReal) (bu : (⟨3, ![E, 1, H]⟩ : Shape).Idx → EReal)
    (wg : (⟨3, ![E, D, H]⟩ : Shape).Idx → EReal) (bg : (⟨3, ![E, 1, H]⟩ : Shape).Idx → EReal)
    (wd : (⟨3, ![E, H, O]⟩ : Shape).Idx → EReal) (bd : (⟨3, ![E, 1, O]⟩ : Shape).Idx → EReal) :
    (⟨3, ![E, T, O]⟩ : Shape).Idx → EReal := fun i =>
  mixed x wu bu wg bg wd (i 0) (i 1) (i 2) + bd (ix3 (i 0) 0 (i 2))

/-! ## The hidden axis in stretches -/

variable {m n : Nat}

/-- Hidden unit number j of stretch s, among m·n. -/
def unitOf (s : Fin m) (j : Fin n) : Fin (m * n) :=
  ⟨s.val * n + j.val, by
    have hs := s.isLt; have hj := j.isLt
    calc s.val * n + j.val < s.val * n + n := by omega
      _ = (s.val + 1) * n := by ring
      _ ≤ m * n := Nat.mul_le_mul_right n hs⟩

/-- A sum over m·n consecutive positions is the sum, over the m stretches of n, of each stretch's sum. -/
theorem sum_stretches {M : Type*} [AddCommMonoid M] (f : Fin (m * n) → M) :
    ∑ c : Fin (m * n), f c = ∑ s : Fin m, ∑ j : Fin n, f (unitOf s j) := by
  rw [← Equiv.sum_comp finProdFinEquiv f, Fintype.sum_prod_type]
  refine Finset.sum_congr rfl fun s _ => Finset.sum_congr rfl fun j _ => congrArg f (Fin.ext ?_)
  show j.val + n * s.val = s.val * n + j.val
  rw [Nat.mul_comm, Nat.add_comm]

/-- Stretch number s's share of the mixed hidden units (nothing, for a number past the last stretch). -/
def stretch (x : (⟨3, ![E, T, D]⟩ : Shape).Idx → EReal)
    (wu : (⟨3, ![E, D, m * n]⟩ : Shape).Idx → EReal) (bu : (⟨3, ![E, 1, m * n]⟩ : Shape).Idx → EReal)
    (wg : (⟨3, ![E, D, m * n]⟩ : Shape).Idx → EReal) (bg : (⟨3, ![E, 1, m * n]⟩ : Shape).Idx → EReal)
    (wd : (⟨3, ![E, m * n, O]⟩ : Shape).Idx → EReal) (e : Fin E) (t : Fin T) (o : Fin O) (s : Nat) : EReal :=
  if hs : s < m then ∑ j : Fin n, hidden x wu bu wg bg e t (unitOf ⟨s, hs⟩ j) * wd (ix3 e (unitOf ⟨s, hs⟩ j) o) else 0

/-- The running sum after stretches 0 … j. -/
def running (x : (⟨3, ![E, T, D]⟩ : Shape).Idx → EReal)
    (wu : (⟨3, ![E, D, m * n]⟩ : Shape).Idx → EReal) (bu : (⟨3, ![E, 1, m * n]⟩ : Shape).Idx → EReal)
    (wg : (⟨3, ![E, D, m * n]⟩ : Shape).Idx → EReal) (bg : (⟨3, ![E, 1, m * n]⟩ : Shape).Idx → EReal)
    (wd : (⟨3, ![E, m * n, O]⟩ : Shape).Idx → EReal) (e : Fin E) (t : Fin T) (o : Fin O) (j : Nat) : EReal :=
  ∑ s ∈ Finset.range (j + 1), stretch x wu bu wg bg wd e t o s

theorem running_zero (x : (⟨3, ![E, T, D]⟩ : Shape).Idx → EReal)
    (wu : (⟨3, ![E, D, m * n]⟩ : Shape).Idx → EReal) (bu : (⟨3, ![E, 1, m * n]⟩ : Shape).Idx → EReal)
    (wg : (⟨3, ![E, D, m * n]⟩ : Shape).Idx → EReal) (bg : (⟨3, ![E, 1, m * n]⟩ : Shape).Idx → EReal)
    (wd : (⟨3, ![E, m * n, O]⟩ : Shape).Idx → EReal) (e : Fin E) (t : Fin T) (o : Fin O) :
    running x wu bu wg bg wd e t o 0 = stretch x wu bu wg bg wd e t o 0 := by
  unfold running; rw [Finset.sum_range_one]

theorem running_succ (x : (⟨3, ![E, T, D]⟩ : Shape).Idx → EReal)
    (wu : (⟨3, ![E, D, m * n]⟩ : Shape).Idx → EReal) (bu : (⟨3, ![E, 1, m * n]⟩ : Shape).Idx → EReal)
    (wg : (⟨3, ![E, D, m * n]⟩ : Shape).Idx → EReal) (bg : (⟨3, ![E, 1, m * n]⟩ : Shape).Idx → EReal)
    (wd : (⟨3, ![E, m * n, O]⟩ : Shape).Idx → EReal) (e : Fin E) (t : Fin T) (o : Fin O) (j : Nat) :
    running x wu bu wg bg wd e t o (j + 1)
      = running x wu bu wg bg wd e t o j + stretch x wu bu wg bg wd e t o (j + 1) := by
  unfold running; rw [Finset.sum_range_succ]

/-- With every stretch in, the running sum is the sum over all hidden units. -/
theorem running_last (x : (⟨3, ![E, T, D]⟩ : Shape).Idx → EReal)
    (wu : (⟨3, ![E, D, m * n]⟩ : Shape).Idx → EReal) (bu : (⟨3, ![E, 1, m * n]⟩ : Shape).Idx → EReal)
    (wg : (⟨3, ![E, D, m * n]⟩ : Shape).Idx → EReal) (bg : (⟨3, ![E, 1, m * n]⟩ : Shape).Idx → EReal)
    (wd : (⟨3, ![E, m * n, O]⟩ : Shape).Idx → EReal) (e : Fin E) (t : Fin T) (o : Fin O) (j : Nat) (hj : j + 1 = m) :
    running x wu bu wg bg wd e t o j = mixed x wu bu wg bg wd e t o := by
  unfold running mixed
  rw [hj, Finset.sum_range, sum_stretches]
  refine Finset.sum_congr rfl fun s _ => ?_
  unfold stretch
  rw [dif_pos s.isLt]

/-! ## A stretch from blocks -/

/-- Blocks that agree with the arrays they were cut from have the arrays' hidden units: a one-expert block of rows
    xb and blocks of n' hidden columns wub, bub, wgb, bgb, read at (0, t, j), against expert e and hidden unit h. -/
theorem hidden_of_blocks {n' : Nat} (x : (⟨3, ![E, T, D]⟩ : Shape).Idx → EReal)
    (wu : (⟨3, ![E, D, H]⟩ : Shape).Idx → EReal) (bu : (⟨3, ![E, 1, H]⟩ : Shape).Idx → EReal)
    (wg : (⟨3, ![E, D, H]⟩ : Shape).Idx → EReal) (bg : (⟨3, ![E, 1, H]⟩ : Shape).Idx → EReal)
    (xb : (⟨3, ![1, T, D]⟩ : Shape).Idx → EReal)
    (wub : (⟨3, ![1, D, n']⟩ : Shape).Idx → EReal) (bub : (⟨3, ![1, 1, n']⟩ : Shape).Idx → EReal)
    (wgb : (⟨3, ![1, D, n']⟩ : Shape).Idx → EReal) (bgb : (⟨3, ![1, 1, n']⟩ : Shape).Idx → EReal)
    (e : Fin E) (t : Fin T) (j : Fin n') (h : Fin H)
    (hx : ∀ k, xb (ix3 0 t k) = x (ix3 e t k))
    (hwu : ∀ k, wub (ix3 0 k j) = wu (ix3 e k h)) (hbu : bub (ix3 0 0 j) = bu (ix3 e 0 h))
    (hwg : ∀ k, wgb (ix3 0 k j) = wg (ix3 e k h)) (hbg : bgb (ix3 0 0 j) = bg (ix3 e 0 h)) :
    hidden xb wub bub wgb bgb 0 t j = hidden x wu bu wg bg e t h := by
  have hu : affine xb wub bub 0 t j = affine x wu bu e t h := by
    unfold affine; rw [hbu]; exact congrArg (· + _) (Finset.sum_congr rfl fun k _ => by rw [hx, hwu])
  have hg : affine xb wgb bgb 0 t j = affine x wg bg e t h := by
    unfold affine; rw [hbg]; exact congrArg (· + _) (Finset.sum_congr rfl fun k _ => by rw [hx, hwg])
  unfold hidden; rw [hu, hg]

/-- A stretch's share from blocks: when a one-expert block of rows, blocks of the stretch's n hidden columns of both
    read-outs and the block of the stretch's n down-projection rows agree with the arrays they were cut from, the
    blocks' own hidden units weighted by the block's column o sum to stretch s's share. -/
theorem stretch_of_blocks (x : (⟨3, ![E, T, D]⟩ : Shape).Idx → EReal)
    (wu : (⟨3, ![E, D, m * n]⟩ : Shape).Idx → EReal) (bu : (⟨3, ![E, 1, m * n]⟩ : Shape).Idx → EReal)
    (wg : (⟨3, ![E, D, m * n]⟩ : Shape).Idx → EReal) (bg : (⟨3, ![E, 1, m * n]⟩ : Shape).Idx → EReal)
    (wd : (⟨3, ![E, m * n, O]⟩ : Shape).Idx → EReal)
    (xb : (⟨3, ![1, T, D]⟩ : Shape).Idx → EReal)
    (wub : (⟨3, ![1, D, n]⟩ : Shape).Idx → EReal) (bub : (⟨3, ![1, 1, n]⟩ : Shape).Idx → EReal)
    (wgb : (⟨3, ![1, D, n]⟩ : Shape).Idx → EReal) (bgb : (⟨3, ![1, 1, n]⟩ : Shape).Idx → EReal)
    (wdb : (⟨3, ![1, n, O]⟩ : Shape).Idx → EReal)
    (e : Fin E) (s : Fin m) (t : Fin T) (o : Fin O)
    (hx : ∀ k, xb (ix3 0 t k) = x (ix3 e t k))
    (hwu : ∀ k j, wub (ix3 0 k j) = wu (ix3 e k (unitOf s j))) (hbu : ∀ j, bub (ix3 0 0 j) = bu (ix3 e 0 (unitOf s j)))
    (hwg : ∀ k j, wgb (ix3 0 k j) = wg (ix3 e k (unitOf s j))) (hbg : ∀ j, bgb (ix3 0 0 j) = bg (ix3 e 0 (unitOf s j)))
    (hwd : ∀ j, wdb (ix3 0 j o) = wd (ix3 e (unitOf s j) o)) :
    ∑ j : Fin n, hidden xb wub bub wgb bgb 0 t j * wdb (ix3 0 j o) = stretch x wu bu wg bg wd e t o s.val := by
  unfold stretch
  rw [dif_pos s.isLt]
  refine Finset.sum_congr rfl fun j _ => ?_
  rw [hwd j, hidden_of_blocks x wu bu wg bg xb wub bub wgb bgb e t j (unitOf s j) hx (fun k => hwu k j) (hbu j)
    (fun k => hwg k j) (hbg j)]

end GatedMlp

end
-- ==== Proof.CaseValues.lean ====
/-
  What one run of the body leaves behind, case by case.

  The body keeps a running sum in a [128, 2048] accumulator. At the first hidden tile of an expert it first clears the
  accumulator and then adds the tile's contribution to the cleared block; at every later tile it adds the contribution
  to what the tile before left; at the expert's last tile it also writes the accumulator plus the output bias into the
  output block. Each lemma reads the stores a case performs back as one value: the later store of a buffer covers it
  whole, and a load placed after a store of the same buffer sees that store.
-/
import proofs.«117831_j86543591014908_1_alg».proof.Proof.Gen.KernelIdeal.Frame
import Idealize.ShloMosaic.Lib.Pipeline.Value

set_option maxRecDepth 16384

noncomputable section

namespace Cert.KernelIdeal.CaseValues

open Idealize.ShloMosaic Idealize.ShloMosaic.TcCoe Idealize.ShloMosaic.Tactic Idealize.SL.Sem Cert.KernelIdeal Cert.KernelIdeal.Gen

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- First tile of an expert: the accumulator ends at the cleared block plus the tile's contribution. -/
theorem acc_first (c : Dev nD) (i : grid0.Coords) (arg2 : Memref sig .tc .vmem S1x128x2048 .f32) (harg2 : arg2.IsWhole) (arg3 : Memref sig .tc .vmem S1x2048x256 .f32) (harg3 : arg3.IsWhole) (arg4 : Memref sig .tc .vmem S1x1x256 .f32) (harg4 : arg4.IsWhole) (arg5 : Memref sig .tc .vmem S1x2048x256 .f32) (harg5 : arg5.IsWhole) (arg6 : Memref sig .tc .vmem S1x1x256 .f32) (harg6 : arg6.IsWhole) (arg7 : Memref sig .tc .vmem S1x256x2048 .f32) (harg7 : arg7.IsWhole) (arg8 : Memref sig .tc .vmem S1x1x2048 .f32) (harg8 : arg8.IsWhole) (arg9 : Memref sig .tc .vmem S1x128x2048 .f32) (harg9 : arg9.IsWhole) (arg10 : Memref sig .tc .vmem S128x2048 .f32) (harg10 : arg10.IsWhole) (hc0 : cond0_0 i) (hc1 : ¬cond0_1 i) (x0 : Vec F S1x128x2048 .f32) (x1 : Vec F S1x2048x256 .f32) (x2 : Vec F S1x1x256 .f32) (x3 : Vec F S1x2048x256 .f32) (x4 : Vec F S1x1x256 .f32) (x5 : Vec F S1x256x2048 .f32) (x6 : Vec F S1x1x2048 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (k0_pay4 x0 x1 x2 x3 x4 x5 (k0_pay3 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S128x2048) origin2, View.readCov_unit_zero (S := S128x2048) _ origin2]
  simp only [View.readAt_eq_ld, harg2.read_unread, harg3.read_unread, harg4.read_unread, harg5.read_unread,
    harg6.read_unread, harg7.read_unread, View.ld_unit_zero (S := S1x128x2048) origin3,
    View.ld_unit_zero (S := S1x2048x256) origin3, View.ld_unit_zero (S := S1x1x256) origin3,
    View.ld_unit_zero (S := S1x256x2048) origin3]

/-- A middle tile: the accumulator ends at what it held plus the tile's contribution. -/
theorem acc_middle (c : Dev nD) (i : grid0.Coords) (arg2 : Memref sig .tc .vmem S1x128x2048 .f32) (harg2 : arg2.IsWhole) (arg3 : Memref sig .tc .vmem S1x2048x256 .f32) (harg3 : arg3.IsWhole) (arg4 : Memref sig .tc .vmem S1x1x256 .f32) (harg4 : arg4.IsWhole) (arg5 : Memref sig .tc .vmem S1x2048x256 .f32) (harg5 : arg5.IsWhole) (arg6 : Memref sig .tc .vmem S1x1x256 .f32) (harg6 : arg6.IsWhole) (arg7 : Memref sig .tc .vmem S1x256x2048 .f32) (harg7 : arg7.IsWhole) (arg8 : Memref sig .tc .vmem S1x1x2048 .f32) (harg8 : arg8.IsWhole) (arg9 : Memref sig .tc .vmem S1x128x2048 .f32) (harg9 : arg9.IsWhole) (arg10 : Memref sig .tc .vmem S128x2048 .f32) (harg10 : arg10.IsWhole) (hc0 : ¬cond0_0 i) (hc1 : ¬cond0_1 i) (x0 : Vec F S1x128x2048 .f32) (x1 : Vec F S1x2048x256 .f32) (x2 : Vec F S1x1x256 .f32) (x3 : Vec F S1x2048x256 .f32) (x4 : Vec F S1x1x256 .f32) (x5 : Vec F S1x256x2048 .f32) (x6 : Vec F S1x1x2048 .f32) (xs0 : Vec F S128x2048 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay1 (k0_pay4 x0 x1 x2 x3 x4 x5 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero origin2]
  simp only [View.readAt_eq_ld, harg2.read_unread, harg3.read_unread, harg4.read_unread, harg5.read_unread,
    harg6.read_unread, harg7.read_unread, harg8.read_unread, harg10.read_unread, View.readCov_unit_zero (S := S128x2048) _ origin2,
    View.ld_unit_zero (S := S1x128x2048) origin3, View.ld_unit_zero (S := S1x2048x256) origin3,
    View.ld_unit_zero (S := S1x1x256) origin3, View.ld_unit_zero (S := S1x256x2048) origin3,
    View.ld_unit_zero (S := S1x1x2048) origin3, View.ld_unit_zero (S := S128x2048) origin2]

/-- The last tile: the accumulator ends as at a middle tile … -/
theorem acc_last (c : Dev nD) (i : grid0.Coords) (arg2 : Memref sig .tc .vmem S1x128x2048 .f32) (harg2 : arg2.IsWhole) (arg3 : Memref sig .tc .vmem S1x2048x256 .f32) (harg3 : arg3.IsWhole) (arg4 : Memref sig .tc .vmem S1x1x256 .f32) (harg4 : arg4.IsWhole) (arg5 : Memref sig .tc .vmem S1x2048x256 .f32) (harg5 : arg5.IsWhole) (arg6 : Memref sig .tc .vmem S1x1x256 .f32) (harg6 : arg6.IsWhole) (arg7 : Memref sig .tc .vmem S1x256x2048 .f32) (harg7 : arg7.IsWhole) (arg8 : Memref sig .tc .vmem S1x1x2048 .f32) (harg8 : arg8.IsWhole) (arg9 : Memref sig .tc .vmem S1x128x2048 .f32) (harg9 : arg9.IsWhole) (arg10 : Memref sig .tc .vmem S128x2048 .f32) (harg10 : arg10.IsWhole) (hc0 : ¬cond0_0 i) (hc1 : cond0_1 i) (x0 : Vec F S1x128x2048 .f32) (x1 : Vec F S1x2048x256 .f32) (x2 : Vec F S1x1x256 .f32) (x3 : Vec F S1x2048x256 .f32) (x4 : Vec F S1x1x256 .f32) (x5 : Vec F S1x256x2048 .f32) (x6 : Vec F S1x1x2048 .f32) (xs0 : Vec F S128x2048 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay1 (k0_pay4 x0 x1 x2 x3 x4 x5 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero origin2]
  simp only [View.readAt_eq_ld, harg2.read_unread, harg3.read_unread, harg4.read_unread, harg5.read_unread,
    harg6.read_unread, harg7.read_unread, harg8.read_unread, harg10.read_unread, View.readCov_unit_zero (S := S128x2048) _ origin2,
    View.ld_unit_zero (S := S1x128x2048) origin3, View.ld_unit_zero (S := S1x2048x256) origin3,
    View.ld_unit_zero (S := S1x1x256) origin3, View.ld_unit_zero (S := S1x256x2048) origin3,
    View.ld_unit_zero (S := S1x1x2048) origin3, View.ld_unit_zero (S := S128x2048) origin2]

/-- … and the output block at that accumulator plus the output bias. -/
theorem out_last (c : Dev nD) (i : grid0.Coords) (arg2 : Memref sig .tc .vmem S1x128x2048 .f32) (harg2 : arg2.IsWhole) (arg3 : Memref sig .tc .vmem S1x2048x256 .f32) (harg3 : arg3.IsWhole) (arg4 : Memref sig .tc .vmem S1x1x256 .f32) (harg4 : arg4.IsWhole) (arg5 : Memref sig .tc .vmem S1x2048x256 .f32) (harg5 : arg5.IsWhole) (arg6 : Memref sig .tc .vmem S1x1x256 .f32) (harg6 : arg6.IsWhole) (arg7 : Memref sig .tc .vmem S1x256x2048 .f32) (harg7 : arg7.IsWhole) (arg8 : Memref sig .tc .vmem S1x1x2048 .f32) (harg8 : arg8.IsWhole) (arg9 : Memref sig .tc .vmem S1x128x2048 .f32) (harg9 : arg9.IsWhole) (arg10 : Memref sig .tc .vmem S128x2048 .f32) (harg10 : arg10.IsWhole) (hc0 : ¬cond0_0 i) (hc1 : cond0_1 i) (x0 : Vec F S1x128x2048 .f32) (x1 : Vec F S1x2048x256 .f32) (x2 : Vec F S1x1x256 .f32) (x3 : Vec F S1x2048x256 .f32) (x4 : Vec F S1x1x256 .f32) (x5 : Vec F S1x256x2048 .f32) (x6 : Vec F S1x1x2048 .f32) (xs0 : Vec F S128x2048 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 (k0_pay1 (k0_pay4 x0 x1 x2 x3 x4 x5 xs0)) x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero origin3]
  simp only [View.readAt_eq_ld, harg2.read_unread, harg3.read_unread, harg4.read_unread, harg5.read_unread,
    harg6.read_unread, harg7.read_unread, harg8.read_unread, harg10.read_unread, View.readCov_unit_zero (S := S128x2048) _ origin2,
    View.ld_unit_zero (S := S1x128x2048) origin3, View.ld_unit_zero (S := S1x2048x256) origin3,
    View.ld_unit_zero (S := S1x1x256) origin3, View.ld_unit_zero (S := S1x256x2048) origin3,
    View.ld_unit_zero (S := S1x1x2048) origin3, View.ld_unit_zero (S := S128x2048) origin2]

end Cert.KernelIdeal.CaseValues
end
-- ==== Proof.Blocks.lean ====
/-
  Where each block sits in its array.

  The grid has 16 · 32 points; point t works on expert e = t / 32 and on hidden tile s = t mod 32, the 256 hidden units
  256·s … 256·s + 255. Its blocks are: rows (e, ·, ·) of the activations; columns 256·s … of the two read-outs' weights
  and biases of expert e; rows 256·s … of expert e's down projection; expert e's output bias; and, for the output,
  rows (e, ·, ·) of the result. Each lemma says that entry y of a block is the array's entry at the block's offset plus y.
-/
import proofs.«117831_j86543591014908_1_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The expert a point works on. -/
def expertOf (t : Fin cfg0.N) : Fin 16 :=
  ⟨t.val / 32, by have h := lt_of_lt_of_eq t.isLt (show cfg0.N = 512 from N_0); omega⟩

/-- The hidden tile a point works on. -/
def tileOf (t : Fin cfg0.N) : Fin 32 := ⟨t.val % 32, Nat.mod_lt _ (by decide)⟩

/-- The printed index maps over the grid: every window follows the expert on axis 0; the weights and biases of the
    two read-outs follow the tile on their last axis, the down projection on its middle axis; nothing else moves. -/
theorem index_maps : ∀ t : Fin cfg0.N,
    (win0_0.index t (0 : Fin 3) = t.val / 32 ∧ win0_0.index t (1 : Fin 3) = 0 ∧ win0_0.index t (2 : Fin 3) = 0)
    ∧ (win0_1.index t (0 : Fin 3) = t.val / 32 ∧ win0_1.index t (1 : Fin 3) = 0 ∧ win0_1.index t (2 : Fin 3) = t.val % 32)
    ∧ (win0_2.index t (0 : Fin 3) = t.val / 32 ∧ win0_2.index t (1 : Fin 3) = 0 ∧ win0_2.index t (2 : Fin 3) = t.val % 32)
    ∧ (win0_3.index t (0 : Fin 3) = t.val / 32 ∧ win0_3.index t (1 : Fin 3) = 0 ∧ win0_3.index t (2 : Fin 3) = t.val % 32)
    ∧ (win0_4.index t (0 : Fin 3) = t.val / 32 ∧ win0_4.index t (1 : Fin 3) = 0 ∧ win0_4.index t (2 : Fin 3) = t.val % 32)
    ∧ (win0_5.index t (0 : Fin 3) = t.val / 32 ∧ win0_5.index t (1 : Fin 3) = t.val % 32 ∧ win0_5.index t (2 : Fin 3) = 0)
    ∧ (win0_6.index t (0 : Fin 3) = t.val / 32 ∧ win0_6.index t (1 : Fin 3) = 0 ∧ win0_6.index t (2 : Fin 3) = 0)
    ∧ (win0_7.index t (0 : Fin 3) = t.val / 32 ∧ win0_7.index t (1 : Fin 3) = 0 ∧ win0_7.index t (2 : Fin 3) = 0) :=
  (by decide +kernel : ∀ t : Fin grid0.N, _)

/-- The activations' block: rows of the point's expert. -/
theorem rows_at (c : Dev nD) (t : Fin cfg0.N) (r : Fin 128) (k : Fin 2048) :
    (iblk m c 0 t : Vec F S1x128x2048 .f32) (ix3 0 r k) = V m c main_arg0 (ix3 (expertOf t) r k) := by
  obtain ⟨⟨e0, e1, e2⟩, -, -, -, -, -, -, -⟩ := index_maps t
  unfold iblk
  rw [View.read_apply]
  show V m c main_arg0 _ = V m c main_arg0 _
  congr 1
  funext a; apply Fin.ext
  match a with
  | ⟨0, _⟩ => show win0_0.index t (0 : Fin 3) * 1 + 1 * 0 = t.val / 32; omega
  | ⟨1, _⟩ => show win0_0.index t (1 : Fin 3) * 128 + 1 * r.val = r.val; omega
  | ⟨2, _⟩ => show win0_0.index t (2 : Fin 3) * 2048 + 1 * k.val = k.val; omega

/-- Hidden unit q of tile s, among the 8192. -/
def unitAt (s : Fin 32) (q : Fin 256) : Fin 8192 := ⟨s.val * 256 + q.val, by have := s.isLt; have := q.isLt; omega⟩

/-- The up read-out's weight block: the tile's columns of the point's expert. -/
theorem up_weights_at (c : Dev nD) (t : Fin cfg0.N) (k : Fin 2048) (q : Fin 256) :
    (iblk m c 1 t : Vec F S1x2048x256 .f32) (ix3 0 k q) = V m c main_arg1 (ix3 (expertOf t) k (unitAt (tileOf t) q)) := by
  obtain ⟨-, ⟨e0, e1, e2⟩, -, -, -, -, -, -⟩ := index_maps t
  unfold iblk
  rw [View.read_apply]
  show V m c main_arg1 _ = V m c main_arg1 _
  congr 1
  funext a; apply Fin.ext
  match a with
  | ⟨0, _⟩ => show win0_1.index t (0 : Fin 3) * 1 + 1 * 0 = t.val / 32; omega
  | ⟨1, _⟩ => show win0_1.index t (1 : Fin 3) * 2048 + 1 * k.val = k.val; omega
  | ⟨2, _⟩ => show win0_1.index t (2 : Fin 3) * 256 + 1 * q.val = t.val % 32 * 256 + q.val; omega

/-- The up read-out's bias block. -/
theorem up_bias_at (c : Dev nD) (t : Fin cfg0.N) (q : Fin 256) :
    (iblk m c 2 t : Vec F S1x1x256 .f32) (ix3 0 0 q) = V m c main_arg2 (ix3 (expertOf t) 0 (unitAt (tileOf t) q)) := by
  obtain ⟨-, -, ⟨e0, e1, e2⟩, -, -, -, -, -⟩ := index_maps t
  unfold iblk
  rw [View.read_apply]
  show V m c main_arg2 _ = V m c main_arg2 _
  congr 1
  funext a; apply Fin.ext
  match a with
  | ⟨0, _⟩ => show win0_2.index t (0 : Fin 3) * 1 + 1 * 0 = t.val / 32; omega
  | ⟨1, _⟩ => show win0_2.index t (1 : Fin 3) * 1 + 1 * 0 = 0; omega
  | ⟨2, _⟩ => show win0_2.index t (2 : Fin 3) * 256 + 1 * q.val = t.val % 32 * 256 + q.val; omega

/-- The gate read-out's weight block. -/
theorem gate_weights_at (c : Dev nD) (t : Fin cfg0.N) (k : Fin 2048) (q : Fin 256) :
    (iblk m c 3 t : Vec F S1x2048x256 .f32) (ix3 0 k q) = V m c main_arg3 (ix3 (expertOf t) k (unitAt (tileOf t) q)) := by
  obtain ⟨-, -, -, ⟨e0, e1, e2⟩, -, -, -, -⟩ := index_maps t
  unfold iblk
  rw [View.read_apply]
  show V m c main_arg3 _ = V m c main_arg3 _
  congr 1
  funext a; apply Fin.ext
  match a with
  | ⟨0, _⟩ => show win0_3.index t (0 : Fin 3) * 1 + 1 * 0 = t.val / 32; omega
  | ⟨1, _⟩ => show win0_3.index t (1 : Fin 3) * 2048 + 1 * k.val = k.val; omega
  | ⟨2, _⟩ => show win0_3.index t (2 : Fin 3) * 256 + 1 * q.val = t.val % 32 * 256 + q.val; omega

/-- The gate read-out's bias block. -/
theorem gate_bias_at (c : Dev nD) (t : Fin cfg0.N) (q : Fin 256) :
    (iblk m c 4 t : Vec F S1x1x256 .f32) (ix3 0 0 q) = V m c main_arg4 (ix3 (expertOf t) 0 (unitAt (tileOf t) q)) := by
  obtain ⟨-, -, -, -, ⟨e0, e1, e2⟩, -, -, -⟩ := index_maps t
  unfold iblk
  rw [View.read_apply]
  show V m c main_arg4 _ = V m c main_arg4 _
  congr 1
  funext a; apply Fin.ext
  match a with
  | ⟨0, _⟩ => show win0_4.index t (0 : Fin 3) * 1 + 1 * 0 = t.val / 32; omega
  | ⟨1, _⟩ => show win0_4.index t (1 : Fin 3) * 1 + 1 * 0 = 0; omega
  | ⟨2, _⟩ => show win0_4.index t (2 : Fin 3) * 256 + 1 * q.val = t.val % 32 * 256 + q.val; omega

/-- The down projection's block: the tile's rows of the point's expert. -/
theorem down_weights_at (c : Dev nD) (t : Fin cfg0.N) (q : Fin 256) (d : Fin 2048) :
    (iblk m c 5 t : Vec F S1x256x2048 .f32) (ix3 0 q d) = V m c main_arg5 (ix3 (expertOf t) (unitAt (tileOf t) q) d) := by
  obtain ⟨-, -, -, -, -, ⟨e0, e1, e2⟩, -, -⟩ := index_maps t
  unfold iblk
  rw [View.read_apply]
  show V m c main_arg5 _ = V m c main_arg5 _
  congr 1
  funext a; apply Fin.ext
  match a with
  | ⟨0, _⟩ => show win0_5.index t (0 : Fin 3) * 1 + 1 * 0 = t.val / 32; omega
  | ⟨1, _⟩ => show win0_5.index t (1 : Fin 3) * 256 + 1 * q.val = t.val % 32 * 256 + q.val; omega
  | ⟨2, _⟩ => show win0_5.index t (2 : Fin 3) * 2048 + 1 * d.val = d.val; omega

/-- The output bias's block: the point's expert's row. -/
theorem out_bias_at (c : Dev nD) (t : Fin cfg0.N) (d : Fin 2048) :
    (iblk m c 6 t : Vec F S1x1x2048 .f32) (ix3 0 0 d) = V m c main_arg6 (ix3 (expertOf t) 0 d) := by
  obtain ⟨-, -, -, -, -, -, ⟨e0, e1, e2⟩, -⟩ := index_maps t
  unfold iblk
  rw [View.read_apply]
  show V m c main_arg6 _ = V m c main_arg6 _
  congr 1
  funext a; apply Fin.ext
  match a with
  | ⟨0, _⟩ => show win0_6.index t (0 : Fin 3) * 1 + 1 * 0 = t.val / 32; omega
  | ⟨1, _⟩ => show win0_6.index t (1 : Fin 3) * 1 + 1 * 0 = 0; omega
  | ⟨2, _⟩ => show win0_6.index t (2 : Fin 3) * 2048 + 1 * d.val = d.val; omega

end Cert.KernelIdeal.Blocks
end
-- ==== Proof.TilePayload.lean ====
/-
  The pure values the kernel body stores, read entry by entry at the ideal values.

  The body keeps a running sum acc of shape [128, 2048]. One tile step takes a block of rows x0 [1,128,2048], blocks of
  256 hidden columns of the up and gate weights x1, x3 [1,2048,256] with their bias rows x2, x4 [1,1,256], and the
  matching 256 rows of the down weights x5 [1,256,2048]. It forms, for row t and hidden column j of the block,
  u = sum_k x0(0,t,k) x1(0,k,j) + x2(0,0,j) and g = sum_k x0(0,t,k) x3(0,k,j) + x4(0,0,j), the hidden unit
  u (g logistic(g)), and adds to acc(t,d) the sum over the 256 hidden columns of hidden(t,j) x5(0,j,d). The changes of
  format between the products are the identity on extended reals, and a product accumulated into a zero splat is the
  plain sum of products over the contracted axis. The other three stored values are the running sum unchanged, a zero
  splat, and the running sum plus the output bias row.

  Nothing here asks that any entry be finite.
-/
import proofs.«117831_j86543591014908_1_alg».proof.Proof.Gen.KernelIdeal.Skeleton
import proofs.«117831_j86543591014908_1_alg».proof.Proof.GatedMlp
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StackMember

noncomputable section

namespace Cert.KernelIdeal.Tile

open Idealize.ShloMosaic Idealize.ShloMosaic.ValueIdx Cert.KernelIdeal Cert.KernelIdeal.Gen

/-! ## The three small stored values -/

/-- A cast of [128, 2048] to itself changes nothing. -/
theorem pay1_eq {F : FTy → Type} [FloatOps F] (v : FVec F S128x2048 .f32) : k0_pay1 v = v := by
  unfold k0_pay1
  exact shapeCast_self v _

/-- The zero splat reads zero everywhere. -/
theorem pay3_apply (i : S128x2048.Idx) : k0_pay3 (F := Ideal) i = 0 := by
  unfold k0_pay3
  rw [shapeCast_self]
  exact Ideal.ofBits_zero_f32

/-! ## Layout operations of the body at an entry, over the body's literal shapes -/

/-- A [1, 128, 2048] block viewed [128, 2048]. -/
theorem rows_apply (x : FVec Ideal S1x128x2048 .f32) (t : Fin 128) (k : Fin 2048) :
    shapeCast S128x2048 x shapeCasts_S1x128x2048_S128x2048 (ix2 t k) = x (ix3 (0 : Fin 1) t k) :=
  shapeCast_1ab_ab_apply x _ t k

/-- A [1, 2048, 256] block viewed [2048, 256]. -/
theorem cols_apply (x : FVec Ideal S1x2048x256 .f32) (k : Fin 2048) (j : Fin 256) :
    shapeCast S2048x256 x shapeCasts_S1x2048x256_S2048x256 (ix2 k j) = x (ix3 (0 : Fin 1) k j) :=
  shapeCast_1ab_ab_apply x _ k j

/-- A [1, 256, 2048] block viewed [256, 2048]. -/
theorem down_apply (x : FVec Ideal S1x256x2048 .f32) (j : Fin 256) (d : Fin 2048) :
    shapeCast S256x2048 x shapeCasts_S1x256x2048_S256x2048 (ix2 j d) = x (ix3 (0 : Fin 1) j d) :=
  shapeCast_1ab_ab_apply x _ j d

/-- A [1, 1, 256] bias row viewed [1, 256] and laid along the 128 rows. -/
theorem biasRow_apply (x : FVec Ideal S1x1x256 .f32) (t : Fin 128) (j : Fin 256) :
    broadcastTo S128x256 (shapeCast S1x256 x shapeCasts_S1x1x256_S1x256) broadcasts_S1x256_S128x256 (ix2 t j)
      = x (ix3 (0 : Fin 1) (0 : Fin 1) j) :=
  (broadcastTo_1b_ab_apply _ _ t j).trans (shapeCast_1ab_ab_apply x _ (0 : Fin 1) j)

/-- A [1, 1, 2048] bias row viewed [1, 2048] and laid along the 128 rows. -/
theorem outBiasRow_apply (x : FVec Ideal S1x1x2048 .f32) (t : Fin 128) (d : Fin 2048) :
    broadcastTo S128x2048 (shapeCast S1x2048 x shapeCasts_S1x1x2048_S1x2048) broadcasts_S1x2048_S128x2048 (ix2 t d)
      = x (ix3 (0 : Fin 1) (0 : Fin 1) d) :=
  (broadcastTo_1b_ab_apply _ _ t d).trans (shapeCast_1ab_ab_apply x _ (0 : Fin 1) d)

/-- A [128, 2048] array viewed [1, 128, 2048]. -/
theorem addUnit_apply (x : FVec Ideal S128x2048 .f32) (t : Fin 128) (d : Fin 2048) :
    shapeCast S1x128x2048 x shapeCasts_S128x2048_S1x128x2048 (ix3 (0 : Fin 1) t d) = x (ix2 t d) :=
  shapeCast_ab_1ab_apply x _ (0 : Fin 1) t d

/-- The running sum plus the output bias row, viewed [1, 128, 2048]. -/
theorem pay2_apply (acc : Vec Ideal S128x2048 .f32) (x6 : Vec Ideal S1x1x2048 .f32) (t : Fin 128) (d : Fin 2048) :
    k0_pay2 (F := Ideal) acc x6 (ix3 0 t d) = acc (ix2 t d) + x6 (ix3 0 0 d) := by
  unfold k0_pay2
  refine (addUnit_apply _ t d).trans ?_
  refine (addf_apply _ _ _).trans ?_
  exact congrArg (acc (ix2 t d) + ·) (outBiasRow_apply x6 t d)

/-! ## The three products of the body at an entry -/

/-- The contraction record of the two first products is the plain one: rows by columns. -/
theorem dotUp_eq : dot_S128x2048_S2048x256_S128x256_1_0_0_1_n_n = DotDims.plain 128 2048 256 := rfl

/-- So is the record of the third product. -/
theorem dotDown_eq : dot_S128x256_S256x2048_S128x2048_1_0_0_1_n_n = DotDims.plain 128 256 2048 := rfl

/-- A [128, 2048] by [2048, 256] product accumulated into zero is the sum of products over the 2048 shared positions. -/
theorem matmulUp_apply (A : FVec Ideal S128x2048 .bf16) (B : FVec Ideal S2048x256 .bf16) (t : Fin 128) (j : Fin 256) :
    matmul dot_S128x2048_S2048x256_S128x256_1_0_0_1_n_n none A B (constant (F := Ideal) S128x256 .f32 0x00000000#32) (ix2 t j)
      = ∑ k : Fin 2048, A (ix2 t k) * B (ix2 k j) := by
  rw [matmul_zero_eq_dotGeneral, dotUp_eq]
  exact StackMember.dotGeneral_plain_apply none A B t j

/-- A [128, 256] by [256, 2048] product accumulated into zero is the sum of products over the 256 shared positions. -/
theorem matmulDown_apply (A : FVec Ideal S128x256 .bf16) (B : FVec Ideal S256x2048 .bf16) (t : Fin 128) (d : Fin 2048) :
    matmul dot_S128x256_S256x2048_S128x2048_1_0_0_1_n_n none A B (constant (F := Ideal) S128x2048 .f32 0x00000000#32) (ix2 t d)
      = ∑ j : Fin 256, A (ix2 t j) * B (ix2 j d) := by
  rw [matmul_zero_eq_dotGeneral, dotDown_eq]
  exact StackMember.dotGeneral_plain_apply none A B t d

/-! ## The tile step -/

/-- One affine read-out of the block: the product of the row block by a column block, plus the bias row. -/
theorem readout_apply (x0 : FVec Ideal S1x128x2048 .f32) (w : FVec Ideal S1x2048x256 .f32) (b : FVec Ideal S1x1x256 .f32)
    (t : Fin 128) (j : Fin 256) :
    addf (matmul dot_S128x2048_S2048x256_S128x256_1_0_0_1_n_n none
            (truncf .bf16 (shapeCast S128x2048 x0 shapeCasts_S1x128x2048_S128x2048) bitsLt_bf16_f32)
            (truncf .bf16 (shapeCast S2048x256 w shapeCasts_S1x2048x256_S2048x256) bitsLt_bf16_f32)
            (constant (F := Ideal) S128x256 .f32 0x00000000#32))
         (broadcastTo S128x256 (shapeCast S1x256 b shapeCasts_S1x1x256_S1x256) broadcasts_S1x256_S128x256) (ix2 t j)
      = GatedMlp.affine x0 w b 0 t j := by
  refine (addf_apply _ _ _).trans ?_
  unfold GatedMlp.affine
  rw [matmulUp_apply, biasRow_apply]
  refine congrArg (· + b (ix3 (0 : Fin 1) (0 : Fin 1) j)) (Finset.sum_congr rfl fun k _ => ?_)
  rw [truncf_apply, truncf_apply, rows_apply, cols_apply]

/-- The tile step adds to the running sum the block's hidden units weighted by the block of down weights. -/
theorem pay4_apply (x0 : Vec Ideal S1x128x2048 .f32) (x1 : Vec Ideal S1x2048x256 .f32) (x2 : Vec Ideal S1x1x256 .f32)
    (x3 : Vec Ideal S1x2048x256 .f32) (x4 : Vec Ideal S1x1x256 .f32) (x5 : Vec Ideal S1x256x2048 .f32)
    (acc : Vec Ideal S128x2048 .f32) (t : Fin 128) (d : Fin 2048) :
    k0_pay4 (F := Ideal) x0 x1 x2 x3 x4 x5 acc (ix2 t d)
      = acc (ix2 t d) + ∑ j : Fin 256, GatedMlp.hidden x0 x1 x2 x3 x4 0 t j * x5 (ix3 0 j d) := by
  unfold k0_pay4
  refine (addf_apply _ _ _).trans ?_
  refine congrArg (acc (ix2 t d) + ·) ?_
  refine (matmulDown_apply _ _ t d).trans ?_
  refine Finset.sum_congr rfl fun j _ => ?_
  rw [truncf_apply, truncf_apply, down_apply]
  refine congrArg (· * x5 (ix3 (0 : Fin 1) j d)) ?_
  refine (mulf_apply _ _ _).trans ?_
  unfold GatedMlp.hidden
  rw [readout_apply x0 x1 x2 t j]
  refine congrArg (GatedMlp.affine x0 x1 x2 0 t j * ·) ?_
  refine (mulf_apply _ _ _).trans ?_
  show _ * Ideal.logistic _ = _
  rw [readout_apply x0 x3 x4 t j]

end Cert.KernelIdeal.Tile

end
-- ==== Proof.Running.lean ====
/-
  The accumulator is the running sum of the hidden tiles.

  After the point of expert e and hidden tile s the accumulator holds, at row r and output column d, the sum over the
  hidden units of tiles 0 … s of hidden(e, r, h) · Wd(e, h, d). The first tile of an expert starts from the cleared
  block, every later tile adds its share to what the tile before left: an induction along the points, each step one
  tile's share read off the point's blocks.
-/
import proofs.«117831_j86543591014908_1_alg».proof.Proof.Gen.KernelIdeal.Frame
import proofs.«117831_j86543591014908_1_alg».proof.Proof.GatedMlp
import proofs.«117831_j86543591014908_1_alg».proof.Proof.CaseValues
import proofs.«117831_j86543591014908_1_alg».proof.Proof.Blocks
import proofs.«117831_j86543591014908_1_alg».proof.Proof.TilePayload
import Idealize.ShloMosaic.Lib.ValueIdx

set_option maxRecDepth 16384

noncomputable section

namespace Cert.KernelIdeal.Running

open Idealize.ShloMosaic Idealize.ShloMosaic.TcCoe Idealize.ShloMosaic.ValueIdx Idealize.SL.Sem Cert.KernelIdeal Cert.KernelIdeal.Gen
open Cert.KernelIdeal.Blocks Cert.KernelIdeal.CaseValues Cert.KernelIdeal.Tile

variable (m : (ℓ : Loc nD τ sig) → Buf (Elt Ideal) ℓ)

/-- The seven argument arrays on core c, as arrays of extended reals (the hidden axis written 32 · 256). -/
abbrev acts (c : Dev nD) : (⟨3, ![16, 128, 2048]⟩ : Shape).Idx → EReal := m ((c : Thread nD τ).loc main_arg0)
abbrev upW (c : Dev nD) : (⟨3, ![16, 2048, 32 * 256]⟩ : Shape).Idx → EReal := m ((c : Thread nD τ).loc main_arg1)
abbrev upB (c : Dev nD) : (⟨3, ![16, 1, 32 * 256]⟩ : Shape).Idx → EReal := m ((c : Thread nD τ).loc main_arg2)
abbrev gateW (c : Dev nD) : (⟨3, ![16, 2048, 32 * 256]⟩ : Shape).Idx → EReal := m ((c : Thread nD τ).loc main_arg3)
abbrev gateB (c : Dev nD) : (⟨3, ![16, 1, 32 * 256]⟩ : Shape).Idx → EReal := m ((c : Thread nD τ).loc main_arg4)
abbrev downW (c : Dev nD) : (⟨3, ![16, 32 * 256, 2048]⟩ : Shape).Idx → EReal := m ((c : Thread nD τ).loc main_arg5)
abbrev outB (c : Dev nD) : (⟨3, ![16, 1, 2048]⟩ : Shape).Idx → EReal := m ((c : Thread nD τ).loc main_arg6)

/-- The running sum after point n: tiles 0 … n mod 32 of expert n / 32. -/
def partialAt (c : Dev nD) (n : ℕ) (hn : n < cfg0.N) : Vec Ideal S128x2048 .f32 := fun i =>
  GatedMlp.running (m := 32) (n := 256) (acts m c) (upW m c) (upB m c) (gateW m c) (gateB m c) (downW m c) (expertOf ⟨n, hn⟩) (i 0) (i 1) (n % 32)

/-- One tile's share, read off the blocks of point t. -/
theorem share_at (c : Dev nD) (t : Fin cfg0.N) (r : Fin 128) (d : Fin 2048) :
    ∑ j : Fin 256, GatedMlp.hidden (iblk m c 0 t : Vec Ideal S1x128x2048 .f32) (iblk m c 1 t : Vec Ideal S1x2048x256 .f32)
        (iblk m c 2 t : Vec Ideal S1x1x256 .f32) (iblk m c 3 t : Vec Ideal S1x2048x256 .f32) (iblk m c 4 t : Vec Ideal S1x1x256 .f32) 0 r j
        * (iblk m c 5 t : Vec Ideal S1x256x2048 .f32) (ix3 0 j d)
      = GatedMlp.stretch (m := 32) (n := 256) (acts m c) (upW m c) (upB m c) (gateW m c) (gateB m c) (downW m c) (expertOf t) r d (t.val % 32) :=
  GatedMlp.stretch_of_blocks (m := 32) (n := 256) (acts m c) (upW m c) (upB m c) (gateW m c) (gateB m c) (downW m c)
    (iblk m c 0 t : Vec Ideal S1x128x2048 .f32) (iblk m c 1 t : Vec Ideal S1x2048x256 .f32)
    (iblk m c 2 t : Vec Ideal S1x1x256 .f32) (iblk m c 3 t : Vec Ideal S1x2048x256 .f32) (iblk m c 4 t : Vec Ideal S1x1x256 .f32)
    (iblk m c 5 t : Vec Ideal S1x256x2048 .f32) (expertOf t) (tileOf t) r d
    (fun k => rows_at m c t r k) (fun k j => up_weights_at m c t k j) (fun j => up_bias_at m c t j)
    (fun k j => gate_weights_at m c t k j) (fun j => gate_bias_at m c t j) (fun j => down_weights_at m c t j d)

/-- At an expert's first tile the accumulator is cleared and takes the tile's share: the running sum of one tile. -/
theorem first_tile (c : Dev nD) (t : Fin cfg0.N) (h0 : t.val % 32 = 0) (h1 : ¬t.val % 32 = 31) :
    (outsAt0 m c t.val t.isLt).2 = partialAt m c t.val t.isLt := by
  rw [outsAt0_A m c t h0 h1]
  dsimp only
  rw [acc_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)]
  funext i
  obtain ⟨r, d, rfl⟩ : ∃ (r : Fin 128) (d : Fin 2048), i = ix2 r d := ⟨i 0, i 1, eq_ix2 i⟩
  rw [pay1_eq]
  refine (pay4_apply (iblk m c 0 t) (iblk m c 1 t) (iblk m c 2 t) (iblk m c 3 t) (iblk m c 4 t) (iblk m c 5 t) (k0_pay3 (F := Ideal)) r d).trans ?_
  rw [pay3_apply, zero_add, share_at m c t r d]
  show _ = GatedMlp.running (m := 32) (n := 256) (acts m c) (upW m c) (upB m c) (gateW m c) (gateB m c) (downW m c) (expertOf t) r d (t.val % 32)
  rw [h0, GatedMlp.running_zero]

/-- At a later tile the accumulator takes the tile's share on top of the running sum the tile before left. -/
theorem later_tile (c : Dev nD) (t : Fin cfg0.N) (h0 : ¬t.val % 32 = 0) (acc : Vec Ideal S128x2048 .f32)
    (hacc : acc = partialAt m c (t.val - 1) (Nat.lt_of_le_of_lt (Nat.sub_le _ _) t.isLt)) :
    k0_pay1 (k0_pay4 (F := Ideal) (iblk m c 0 t) (iblk m c 1 t) (iblk m c 2 t) (iblk m c 3 t) (iblk m c 4 t) (iblk m c 5 t) acc) = partialAt m c t.val t.isLt := by
  funext i
  obtain ⟨r, d, rfl⟩ : ∃ (r : Fin 128) (d : Fin 2048), i = ix2 r d := ⟨i 0, i 1, eq_ix2 i⟩
  rw [pay1_eq]
  refine (pay4_apply (iblk m c 0 t) (iblk m c 1 t) (iblk m c 2 t) (iblk m c 3 t) (iblk m c 4 t) (iblk m c 5 t) acc r d).trans ?_
  rw [share_at m c t r d, hacc]
  have he : expertOf ⟨t.val - 1, Nat.lt_of_le_of_lt (Nat.sub_le _ _) t.isLt⟩ = expertOf t := by
    apply Fin.ext; show (t.val - 1) / 32 = t.val / 32; omega
  have hs : t.val % 32 = (t.val - 1) % 32 + 1 := by omega
  show GatedMlp.running (m := 32) (n := 256) (acts m c) (upW m c) (upB m c) (gateW m c) (gateB m c) (downW m c) (expertOf ⟨t.val - 1, _⟩) r d ((t.val - 1) % 32) + _
    = GatedMlp.running (m := 32) (n := 256) (acts m c) (upW m c) (upB m c) (gateW m c) (gateB m c) (downW m c) (expertOf t) r d (t.val % 32)
  rw [he, hs, GatedMlp.running_succ]

/-- After every point the accumulator holds the running sum of the expert's tiles so far. -/
theorem acc_eq (c : Dev nD) : ∀ (n : ℕ) (hn : n < cfg0.N), (outsAt0 m c n hn).2 = partialAt m c n hn
  | 0, hn => first_tile m c ⟨0, hn⟩ rfl (by show ¬(0 : ℕ) % 32 = 31; decide)
  | n + 1, hn => by
    by_cases h0 : (n + 1) % 32 = 0
    · exact first_tile m c ⟨n + 1, hn⟩ h0 (by show ¬(n + 1) % 32 = 31; omega)
    · by_cases h1 : (n + 1) % 32 = 31
      · let t : Fin cfg0.N := ⟨n + 1, hn⟩
        rw [outsAt0_C m c t h0 h1]
        dsimp only
        rw [acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t)
          (outsAt0 m c (t.val - 1) (Nat.lt_of_le_of_lt (Nat.sub_le _ _) t.isLt)).2]
        exact later_tile m c t h0 _ (acc_eq c n _)
      · let t : Fin cfg0.N := ⟨n + 1, hn⟩
        rw [outsAt0_B m c t h0 h1]
        dsimp only
        rw [acc_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t)
          (outsAt0 m c (t.val - 1) (Nat.lt_of_le_of_lt (Nat.sub_le _ _) t.isLt)).2]
        exact later_tile m c t h0 _ (acc_eq c n _)

end Cert.KernelIdeal.Running
end
-- ==== Proof.Result.lean ====
/-
  The result array after the run.

  Only an expert's last tile writes the output block back, and it writes the finished accumulator plus the output
  bias: with all 32 tiles in, the running sum is the sum over all 8192 hidden units, so the block written back for expert e
  is rows (e, ·, ·) of the bank of gated perceptrons applied to the argument arrays. The sixteen blocks written back, one
  per expert, tile the result array, so after the run the array is that function of the arguments.
-/
import proofs.«117831_j86543591014908_1_alg».proof.Proof.Gen.KernelIdeal.Value
import proofs.«117831_j86543591014908_1_alg».proof.Proof.Running
import Idealize.ShloMosaic.Lib.Pipeline.Value

set_option maxRecDepth 16384

noncomputable section

namespace Cert.KernelIdeal.Result

open Idealize.ShloMosaic Idealize.ShloMosaic.TcCoe Idealize.ShloMosaic.ValueIdx Idealize.SL.Sem Cert.KernelIdeal Cert.KernelIdeal.Gen
open Idealize.ShloMosaic.Pipeline (Dat)
open Cert.KernelIdeal.Blocks Cert.KernelIdeal.CaseValues Cert.KernelIdeal.Tile Cert.KernelIdeal.Running

variable (m : (ℓ : Loc nD τ sig) → Buf (Elt Ideal) ℓ) (ρ : Dev nD → PrngReg)

/-- The bank of gated perceptrons applied to core c's argument arrays. -/
abbrev result (c : Dev nD) : Buf (Elt Ideal) ((c : Thread nD τ).loc main_v0) :=
  GatedMlp.out (H := 32 * 256) (acts m c) (upW m c) (upB m c) (gateW m c) (gateB m c) (downW m c) (outB m c)

/-- What an expert's last tile writes back is the expert's rows of the result. -/
theorem flushed_eq (c : Dev nD) (t : Fin cfg0.N) (hf : (cfg0.win 7).flush t = true) :
    (dats m 0 c).flushed 7 t = ((cfg0.win 7).blk t).view.read (Elt Ideal) (result m c) := by
  have h1 : t.val % 32 = 31 := (flush0_7 t).mp hf
  have h0 : ¬t.val % 32 = 0 := by omega
  rw [Value.flushed7_C m c t h0 h1,
    out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2,
    later_tile m c t h0 _ (acc_eq m c (t.val - 1) _)]
  refine funext fun (y : S1x128x2048.Idx) => ?_
  obtain ⟨a, r, d, rfl⟩ : ∃ (a : Fin 1) (r : Fin 128) (d : Fin 2048), y = ix3 a r d := ⟨y 0, y 1, y 2, eq_ix3 y⟩
  obtain rfl : a = 0 := Subsingleton.elim _ _
  rw [View.read_apply]
  have hemb : ((cfg0.win 7).blk t).view.emb (ix3 (0 : Fin 1) r d) = ix3 (expertOf t) r d := by
    obtain ⟨-, -, -, -, -, -, -, ⟨e0, e1, e2⟩⟩ := index_maps t
    funext a; apply Fin.ext
    match a with
    | ⟨0, _⟩ => show win0_7.index t (0 : Fin 3) * 1 + 1 * 0 = t.val / 32; omega
    | ⟨1, _⟩ => show win0_7.index t (1 : Fin 3) * 128 + 1 * r.val = r.val; omega
    | ⟨2, _⟩ => show win0_7.index t (2 : Fin 3) * 2048 + 1 * d.val = d.val; omega
  rw [hemb]
  show k0_pay2 (F := Ideal) (partialAt m c t.val t.isLt) (iblk m c 6 t) (ix3 0 r d) = _
  rw [pay2_apply, out_bias_at m c t d]
  show GatedMlp.running (m := 32) (n := 256) (acts m c) (upW m c) (upB m c) (gateW m c) (gateB m c) (downW m c) (expertOf t) r d (t.val % 32) + outB m c (ix3 (expertOf t) 0 d)
    = GatedMlp.mixed (H := 32 * 256) (acts m c) (upW m c) (upB m c) (gateW m c) (gateB m c) (downW m c) (expertOf t) r d + outB m c (ix3 (expertOf t) 0 d)
  rw [GatedMlp.running_last _ _ _ _ _ _ _ _ _ _ (by omega)]

/-- Every entry of the result array lies in the block its expert's last tile writes back. -/
theorem covered (i : S16x128x2048.Idx) :
    ∃ t : Fin cfg0.N, (cfg0.win 7).flush t = true ∧ i ∈ ((cfg0.win 7).blk t).view.set := by
  have hi0 : (i 0).val < 16 := (i 0).isLt
  have hi1 : (i 1).val < 128 := (i 1).isLt
  have hi2 : (i 2).val < 2048 := (i 2).isLt
  let t : Fin cfg0.N := ⟨32 * (i 0).val + 31, by rw [show cfg0.N = 512 from N_0]; omega⟩
  have ht : t.val = 32 * (i 0).val + 31 := rfl
  refine ⟨t, (flush0_7 t).mpr (by omega), ?_⟩
  obtain ⟨-, -, -, -, -, -, -, ⟨e0, e1, e2⟩⟩ := index_maps t
  show i ∈ ((View.whole main_v0).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 128 ≤ (i 1).val ∧ (i 1).val < win0_7.index t (1 : Fin 3) * 128 + 128; omega
  | ⟨2, _⟩ => show win0_7.index t (2 : Fin 3) * 2048 ≤ (i 2).val ∧ (i 2).val < win0_7.index t (2 : Fin 3) * 2048 + 2048; omega

/-- After the run the result array is the bank of gated perceptrons applied to the arguments. -/
theorem final (c : Dev nD) : (dats m 0 c).arrAt 7 cfg0.N = result m c :=
  (dats m 0 c).arrAt_eq_of_cover 7 (result m c) (flushed_eq m c) covered

/-- The run, read: the result array at that function of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Result
end
-- ==== Proof.ReferenceValue.lean ====
/-
  The reference program computes the bank of gated perceptrons.

  For expert e, row t and hidden unit h the program forms two affine read-outs of the row, each a batched product
  with a weight array plus a bias row repeated along the rows: u = Σ_k x(e,t,k)·Wu(e,k,h) + bu(e,0,h) and
  g = Σ_k x(e,t,k)·Wg(e,k,h) + bg(e,0,h). It passes g through g ↦ g · (1 / (1 + e^(-g))), multiplies by u, contracts
  the hidden axis against Wd and adds bd(e,0,o). On the extended reals 1 / (1 + e^(-g)) is the logistic function by
  its definition, the word 0x3F800000 denoting the real 1; so entry (e,t,o) of the result is GatedMlp.out, whatever the
  entries are: nothing here asks that any of them be finite.

  Each stage of the program is read at an index built from coordinates: the index functions of a batched product and
  of a repeated bias row are identified with the coordinate constructors first (one equation each, checked axis by
  axis), then the stages are read from the inside out: the affine read-outs, the gate, the hidden unit, the sum over
  the hidden units, the output.
-/
import proofs.«117831_j86543591014908_1_alg».proof.Proof.Gen.ReferenceIdeal.Read
import proofs.«117831_j86543591014908_1_alg».proof.Proof.GatedMlp

noncomputable section

namespace Cert.ReferenceIdeal.RefValue

open Cert.ReferenceIdeal Cert.ReferenceIdeal.Gen Cert.ReferenceIdeal.Read Idealize.ShloMosaic Idealize.ShloMosaic.ValueIdx

/-- The word 0x3F800000 denotes the real 1. -/
theorem one_bits : Ideal.ofBits .f32 0x3F800000#32 = 1 := by
  simp [Ideal.ofBits, Ideal.ieee, -EReal.coe_mul]; norm_num

/-! ## The index functions are the coordinate constructors -/

/-- The first product reads x at (e, t, k). -/
theorem lidx_v0 (e : Fin 16) (t : Fin 128) (h : Fin 8192) (k : Fin 2048) :
    lidx_main_v0 (ix3 e t h) k = ix3 e t k :=
  funext fun a => match a with | ⟨0, _⟩ => rfl | ⟨1, _⟩ => rfl | ⟨2, _⟩ => rfl

/-- The first product reads its weights at (e, k, h). -/
theorem ridx_v0 (e : Fin 16) (t : Fin 128) (h : Fin 8192) (k : Fin 2048) :
    ridx_main_v0 (ix3 e t h) k = ix3 e k h :=
  funext fun a => match a with | ⟨0, _⟩ => rfl | ⟨1, _⟩ => rfl | ⟨2, _⟩ => rfl

/-- The first bias row, repeated along the rows, is read at (e, 0, h). -/
theorem idx_v1 (e : Fin 16) (t : Fin 128) (h : Fin 8192) :
    idx_main_v1 (ix3 e t h) = ix3 e 0 h :=
  funext fun a => match a with | ⟨0, _⟩ => rfl | ⟨1, _⟩ => rfl | ⟨2, _⟩ => rfl

/-- The second product reads x at (e, t, k). -/
theorem lidx_v3 (e : Fin 16) (t : Fin 128) (h : Fin 8192) (k : Fin 2048) :
    lidx_main_v3 (ix3 e t h) k = ix3 e t k :=
  funext fun a => match a with | ⟨0, _⟩ => rfl | ⟨1, _⟩ => rfl | ⟨2, _⟩ => rfl

/-- The second product reads its weights at (e, k, h). -/
theorem ridx_v3 (e : Fin 16) (t : Fin 128) (h : Fin 8192) (k : Fin 2048) :
    ridx_main_v3 (ix3 e t h) k = ix3 e k h :=
  funext fun a => match a with | ⟨0, _⟩ => rfl | ⟨1, _⟩ => rfl | ⟨2, _⟩ => rfl

/-- The second bias row, repeated along the rows, is read at (e, 0, h). -/
theorem idx_v4 (e : Fin 16) (t : Fin 128) (h : Fin 8192) :
    idx_main_v4 (ix3 e t h) = ix3 e 0 h :=
  funext fun a => match a with | ⟨0, _⟩ => rfl | ⟨1, _⟩ => rfl | ⟨2, _⟩ => rfl

/-- The third product reads the hidden units at (e, t, k). -/
theorem lidx_v8 (e : Fin 16) (t : Fin 128) (o : Fin 2048) (k : Fin 8192) :
    lidx_main_v8 (ix3 e t o) k = ix3 e t k :=
  funext fun a => match a with | ⟨0, _⟩ => rfl | ⟨1, _⟩ => rfl | ⟨2, _⟩ => rfl

/-- The third product reads its weights at (e, k, o). -/
theorem ridx_v8 (e : Fin 16) (t : Fin 128) (o : Fin 2048) (k : Fin 8192) :
    ridx_main_v8 (ix3 e t o) k = ix3 e k o :=
  funext fun a => match a with | ⟨0, _⟩ => rfl | ⟨1, _⟩ => rfl | ⟨2, _⟩ => rfl

/-- The output bias row, repeated along the rows, is read at (e, 0, o). -/
theorem idx_v9 (e : Fin 16) (t : Fin 128) (o : Fin 2048) :
    idx_main_v9 (ix3 e t o) = ix3 e 0 o :=
  funext fun a => match a with | ⟨0, _⟩ => rfl | ⟨1, _⟩ => rfl | ⟨2, _⟩ => rfl

/-! ## The stages, from the inside out -/

/-- The first product plus its bias row is the affine read-out. -/
theorem up_read (x : FVec Ideal S16x128x2048 .f32) (w : FVec Ideal S16x2048x8192 .f32) (b : FVec Ideal S16x1x8192 .f32)
    (e : Fin 16) (t : Fin 128) (h : Fin 8192) :
    val_main_v2 (F := Ideal) x w b (ix3 e t h) = GatedMlp.affine x w b e t h := by
  rw [val_main_v2_apply, val_main_v0_apply, val_main_v1_apply, idx_v1, Ideal.addf_def]
  unfold GatedMlp.affine
  exact congrArg (· + _) (Finset.sum_congr rfl fun k _ => by rw [lidx_v0, ridx_v0])

/-- The second product plus its bias row is the affine read-out. -/
theorem gate_read (x : FVec Ideal S16x128x2048 .f32) (w : FVec Ideal S16x2048x8192 .f32) (b : FVec Ideal S16x1x8192 .f32)
    (e : Fin 16) (t : Fin 128) (h : Fin 8192) :
    val_main_v5 (F := Ideal) x w b (ix3 e t h) = GatedMlp.affine x w b e t h := by
  rw [val_main_v5_apply, val_main_v3_apply, val_main_v4_apply, idx_v4, Ideal.addf_def]
  unfold GatedMlp.affine
  exact congrArg (· + _) (Finset.sum_congr rfl fun k _ => by rw [lidx_v3, ridx_v3])

/-- Negate, exponential, one plus, one over, times the argument: g · σ(g), entry by entry. -/
theorem silu_read (x : FVec Ideal S16x128x2048 .f32) (w : FVec Ideal S16x2048x8192 .f32) (b : FVec Ideal S16x1x8192 .f32)
    (i : S16x128x8192.Idx) :
    val_main_v6 (F := Ideal) x w b i
      = val_main_v5 (F := Ideal) x w b i * Ideal.logistic (val_main_v5 (F := Ideal) x w b i) := by
  rw [val_main_v6_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, one_bits, Ideal.logistic]

/-- The product of the first read-out with the gated second one is the hidden unit. -/
theorem hidden_read (x : FVec Ideal S16x128x2048 .f32)
    (wu : FVec Ideal S16x2048x8192 .f32) (bu : FVec Ideal S16x1x8192 .f32)
    (wg : FVec Ideal S16x2048x8192 .f32) (bg : FVec Ideal S16x1x8192 .f32)
    (e : Fin 16) (t : Fin 128) (h : Fin 8192) :
    val_main_v7 (F := Ideal) x wu bu wg bg (ix3 e t h) = GatedMlp.hidden x wu bu wg bg e t h := by
  rw [val_main_v7_apply, silu_read, up_read, gate_read, Ideal.mulf_def]
  rfl

/-- The third product is the sum over the hidden units. -/
theorem mixed_read (x : FVec Ideal S16x128x2048 .f32)
    (wu : FVec Ideal S16x2048x8192 .f32) (bu : FVec Ideal S16x1x8192 .f32)
    (wg : FVec Ideal S16x2048x8192 .f32) (bg : FVec Ideal S16x1x8192 .f32)
    (wd : FVec Ideal S16x8192x2048 .f32) (e : Fin 16) (t : Fin 128) (o : Fin 2048) :
    val_main_v8 (F := Ideal) x wu bu wg bg wd (ix3 e t o) = GatedMlp.mixed x wu bu wg bg wd e t o := by
  rw [val_main_v8_apply]
  unfold GatedMlp.mixed
  exact Finset.sum_congr rfl fun k _ => by rw [lidx_v8, ridx_v8, hidden_read]

/-! ## The result -/

/-- The term the reference's run ends at, as a function of the seven argument arrays (x, then the weights and
    bias row of the first read-out, of the second, gated, read-out, and of the output), is the bank of gated
    perceptrons. -/
theorem result_eq (x : FVec Ideal S16x128x2048 .f32)
    (wu : FVec Ideal S16x2048x8192 .f32) (bu : FVec Ideal S16x1x8192 .f32)
    (wg : FVec Ideal S16x2048x8192 .f32) (bg : FVec Ideal S16x1x8192 .f32)
    (wd : FVec Ideal S16x8192x2048 .f32) (bd : FVec Ideal S16x1x2048 .f32) :
    addf (Host.dotGeneral (F := Ideal) dot_S16x128x8192_S16x8192x2048_S16x128x2048_2_1_1_2_0_0 none (mulf (addf (Host.dotGeneral (F := Ideal) dot_S16x128x2048_S16x2048x8192_S16x128x8192_2_1_1_2_0_0 none (x) (wu)) (broadcastInDim S16x128x8192 ![0, 1, 2] bcast_S16x1x8192_S16x128x8192_0_1_2 (bu))) (mulf (addf (Host.dotGeneral (F := Ideal) dot_S16x128x2048_S16x2048x8192_S16x128x8192_2_1_1_2_0_0 none (x) (wg)) (broadcastInDim S16x128x8192 ![0, 1, 2] bcast_S16x1x8192_S16x128x8192_0_1_2 (bg))) (Host.divf (F := Ideal) (broadcastInDim S16x128x8192 ![] bcast_S_S16x128x8192 (constant (F := Ideal) S_ .f32 0x3F800000#32)) (addf (broadcastInDim S16x128x8192 ![] bcast_S_S16x128x8192 (constant (F := Ideal) S_ .f32 0x3F800000#32)) (Host.exp (F := Ideal) (Host.negf (F := Ideal) (addf (Host.dotGeneral (F := Ideal) dot_S16x128x2048_S16x2048x8192_S16x128x8192_2_1_1_2_0_0 none (x) (wg)) (broadcastInDim S16x128x8192 ![0, 1, 2] bcast_S16x1x8192_S16x128x8192_0_1_2 (bg))))))))) (wd)) (broadcastInDim S16x128x2048 ![0, 1, 2] bcast_S16x1x2048_S16x128x2048_0_1_2 (bd))
      = GatedMlp.out x wu bu wg bg wd bd := by
  rw [val_main_v10_eq]
  funext i
  obtain ⟨e, t, o, rfl⟩ : ∃ (e : Fin 16) (t : Fin 128) (o : Fin 2048), i = ix3 e t o := ⟨i 0, i 1, i 2, eq_ix3 i⟩
  rw [val_main_v10_apply, val_main_v9_apply, idx_v9, mixed_read, Ideal.addf_def]
  rfl

end Cert.ReferenceIdeal.RefValue

end
-- ==== Proof.lean ====
/-
  A bank of sixteen gated two-layer perceptrons, computed tile by tile, against the same bank computed whole.

  Expert e maps a row of 2048 features through 8192 hidden units to 2048 outputs: hidden unit h is
  u · (g · σ(g)) for two affine read-outs u, g of the row (σ the logistic function), and output o is the hidden units
  weighted by column o of the down projection, plus a bias. The kernel walks a grid of 16 experts by 32 tiles of 256
  hidden units; at each point it forms the tile's 256 hidden units from blocks of the weights and adds their weighted
  sum to an accumulator it cleared at the expert's first tile; at the last tile it writes accumulator plus bias back. The
  reference forms all 8192 hidden units at once and contracts them in one product, its g · σ(g) spelt as
  g · (1 / (1 + e^(-g))).

  Over the extended reals the narrowings to a shorter float format between the products are the identity, a matrix
  product accumulated into zero is a plain finite sum, and 1 / (1 + e^(-g)) is the logistic function by definition. So both
  programs compute the same sums of the same terms; they differ only in that the kernel takes the sum over the hidden
  units in 32 consecutive stretches. Addition of extended reals is commutative and associative, so the running sum of
  the stretches ends at the whole sum: no entry needs to be finite, and the precondition is never opened.

  GatedMlp states the bank as a function and the stretch law; TilePayload reads the body's stored values entry by
  entry; CaseValues reads back what each case of the body leaves; Blocks places each block in its array; Running is the
  induction along the grid; Result reads the result array after the run; ReferenceValue reads the reference's stages.
  The two programs' frames are the generated ones; the reference's is its generated run with the result dropped.
-/
import proofs.«117831_j86543591014908_1_alg».proof.Defs
import proofs.«117831_j86543591014908_1_alg».proof.Proof.Gen.Kernel
import proofs.«117831_j86543591014908_1_alg».proof.Proof.Gen.Kernel.Skeleton
import proofs.«117831_j86543591014908_1_alg».proof.Proof.Gen.Kernel.Launch
import proofs.«117831_j86543591014908_1_alg».proof.Proof.Gen.Kernel.Points
import proofs.«117831_j86543591014908_1_alg».proof.Proof.Gen.Kernel.Frame
import proofs.«117831_j86543591014908_1_alg».proof.Proof.Gen.KernelIdeal
import proofs.«117831_j86543591014908_1_alg».proof.Proof.Gen.KernelIdeal.Skeleton
import proofs.«117831_j86543591014908_1_alg».proof.Proof.Gen.KernelIdeal.Launch
import proofs.«117831_j86543591014908_1_alg».proof.Proof.Gen.KernelIdeal.Points
import proofs.«117831_j86543591014908_1_alg».proof.Proof.Gen.KernelIdeal.Frame
import proofs.«117831_j86543591014908_1_alg».proof.Proof.Gen.ReferenceIdeal
import proofs.«117831_j86543591014908_1_alg».proof.Proof.Gen.Pre_finite_inputs
import proofs.«117831_j86543591014908_1_alg».proof.Proof.Gen.KernelIdeal.Value
import proofs.«117831_j86543591014908_1_alg».proof.Proof.Gen.ReferenceIdeal.Run
import proofs.«117831_j86543591014908_1_alg».proof.Proof.Gen.ReferenceIdeal.Read
import proofs.«117831_j86543591014908_1_alg».proof.Proof.Result
import proofs.«117831_j86543591014908_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel :=
  fun m ρ _ => Cert.Kernel.Gen.frame m ρ

/-- So does its reading over the extended reals. -/
theorem frame_kernelIdeal : Cert.frame_KernelIdeal :=
  fun m ρ _ => Cert.KernelIdeal.Gen.frame m ρ

/-- The reference runs and leaves its arguments alone: its run, the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- From arguments that agree, both programs end with the bank of gated perceptrons applied to them. -/
theorem same_result : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono
    (fun _ h c => ⟨(h c).1.trans ((Cert.ReferenceIdeal.RefValue.result_eq _ _ _ _ _ _ _).trans ?_), (h c).2⟩)
    (Cert.ReferenceIdeal.Value.run (F := Ideal) m' ρ')
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, same_result⟩

end Cert.Proof

end
